-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x128 : Shape := ⟨2, ![600000, 128]⟩
abbrev S100000x128 : Shape := ⟨2, ![100000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S600000x128 : S_.BroadcastsInDim S600000x128 (![] : Fin 0 → Fin S600000x128.rank)
  reducesTo_S600000x128_S_d0_1 : S600000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S600000x128 .f32) (main_arg1 : FVec F S100000x128 .f32) (main_arg2 : IVec S600000 32) (main_arg3 : IVec S600000 32) (main_arg4 : FVec F S384x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S600000x128 .f32 := Host.absf main_arg0
  let main_cst : FVec F S_ .f32 := constant S_ .f32 0x7F800000#32
  let main_v1 : FVec F S600000x128 .f32 := broadcastInDim S600000x128 ![] bcast_S_S600000x128 main_cst
  let main_v2 : IVec S600000x128 1 := cmpf .olt main_v0 main_v1
  let main_c : IVec S_ 1 := constantI S_ 1 1#1
  let main_v3 : IVec S_ 1 := (fun x v => Host.reduce IntOp.andi x v reducesTo_S600000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S600000x128 : Shape := ⟨2, ![600000, 128]⟩
abbrev S100000x128 : Shape := ⟨2, ![100000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S1600x128 : Shape := ⟨2, ![1600, 128]⟩
abbrev S1x128 : Shape := ⟨2, ![1, 128]⟩
abbrev S1600 : Shape := ⟨1, ![1600]⟩
abbrev S1600x1 : Shape := ⟨2, ![1600, 1]⟩

abbrev nBuf : Space → Nat
  | .hbm => 29
  | .vmem => 14
  | .smem => 0
  | _ => 0

abbrev bufTy : (tb : Table) → Fin (tcTables nBuf tb) → BufTy
  | .hbm, ⟨0, _⟩ => ⟨S600000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x128, .f32⟩
  | .local _ .vmem, ⟨5, _⟩ => ⟨S1600x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S1600x128, .f32⟩
  | .local _ .vmem, ⟨13, _⟩ => ⟨S1600x128, .f32⟩
  | _, _ => ⟨S600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![375], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1600x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S384x128_S128x128_0_0 : ∀ a, (![0, 0] : Fin 2 → Nat) a + S128x128.size a ≤ S384x128.size a
  h_S128x128 : 0 < S128x128.numel
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S128_S128_0 : ∀ a, (![0] : Fin 1 → Nat) a + S128.size a ≤ S128.size a
  h_S128 : 0 < S128.numel
  shapeCasts_S128_S1x128 : S128.ShapeCasts S1x128
  broadcasts_S1x128_S1600x128 : S1x128.Broadcasts S1600x128
  inb_S128x128_S128x128_0_0 : ∀ a, (![0, 0] : Fin 2 → Nat) a + S128x128.size a ≤ S128x128.size a
  reduces_S1600x128_S1600 : S1600x128.Reduces [1] S1600
  shapeCasts_S1600_S1600x1 : S1600.ShapeCasts S1600x1
  broadcasts_S1600x1_S1600x128 : S1600x1.Broadcasts S1600x128
  gather_S100000x128_S600000x1_S600000x128_1_0_n_n_0_1_1128_wf : GatherDims.WF S100000x128 S600000x1 S600000x128 [1] [0] [] [0] [] 1 ![1, 128]
  dot_S1600x128_S128x128_S1600x128_1_0_0_1_n_n_wf : DotDims.WF S1600x128 S128x128 S1600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S600000x128.size a
  hwx0_0 : ∀ i : grid0.Coords, EltTy.bits .f32 = 32 ∨ (Rect.block (s := S600000x128) S1600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S600000x128.size a
  hwx0_1 : ∀ i : grid0.Coords, EltTy.bits .f32 = 32 ∨ (Rect.block (s := S600000x128) S1600x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x128.size a ≤ S600000x128.size a
  hwx0_2 : ∀ i : grid0.Coords, EltTy.bits .f32 = 32 ∨ (Rect.block (s := S600000x128) S1600x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1600x128.size a ≤ S600000x128.size a
  hwx0_9 : ∀ i : grid0.Coords, EltTy.bits .f32 = 32 ∨ (Rect.block (s := S600000x128) S1600x128.size (cc0_transform_9 i) (hinb0_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf

abbrev win0_0 : Pipeline.Window sig grid0 :=
  Pipeline.Window.ofSpec (Memref.whole main_arg0) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1600x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1600x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S600000x128 : Shape := ⟨2, ![600000, 128]⟩
abbrev S100000x128 : Shape := ⟨2, ![100000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S600000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S600000x128, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S600000x128, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S1x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S600000, .f32⟩
  | .hbm, ⟨54, _⟩ => ⟨S600000x1, .f32⟩
  | .hbm, ⟨55, _⟩ => ⟨S_, .f32⟩
  | .hbm, ⟨56, _⟩ => ⟨S600000x1, .f32⟩
  | .hbm, ⟨57, _⟩ => ⟨S600000x1, .f32⟩
  | .hbm, ⟨58, _⟩ => ⟨S600000x128, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S600000, .f32⟩
  | .hbm, ⟨63, _⟩ => ⟨S600000x1, .f32⟩
  | .hbm, ⟨64, _⟩ => ⟨S_, .f32⟩
  | .hbm, ⟨65, _⟩ => ⟨S600000x1, .f32⟩
  | .hbm, ⟨66, _⟩ => ⟨S600000x1, .f32⟩
  | .hbm, ⟨67, _⟩ => ⟨S600000x128, .f32⟩
  | .hbm, ⟨68, _⟩ => ⟨S600000x128, .f32⟩
  | .hbm, ⟨69, _⟩ => ⟨S_, .f32⟩
  | .hbm, ⟨70, _⟩ => ⟨S600000x1, .f32⟩
  | .hbm, ⟨71, _⟩ => ⟨S600000x1, .f32⟩
  | .hbm, ⟨72, _⟩ => ⟨S600000x1, .f32⟩
  | .hbm, ⟨73, _⟩ => ⟨S600000x128, .f32⟩
  | .hbm, ⟨74, _⟩ => ⟨S600000x128, .f32⟩
  | .hbm, ⟨75, _⟩ => ⟨S1x128, .f32⟩
  | .hbm, ⟨76, _⟩ => ⟨S600000x128, .f32⟩
  | .hbm, ⟨77, _⟩ => ⟨S600000x128, .f32⟩
  | .hbm, ⟨78, _⟩ => ⟨S1x128, .f32⟩
  | .hbm, ⟨79, _⟩ => ⟨S600000x128, .f32⟩
  | .hbm, ⟨80, _⟩ => ⟨S600000x128, .f32⟩
  | .hbm, ⟨81, _⟩ => ⟨S600000x128, .f32⟩
  | _, _ => ⟨S600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.KernelOps.lean ====
/-
  The kernel body's non-pointwise operations, each read at explicit coordinates of a [1600, 128] block at the exact
  (extended-real) instance: a product with a [128, 128] matrix accumulated into zero is the 128-term sum of products; a
  sum along the feature axis is the 128-term sum; a length-128 vector laid along the rows, and a per-row scalar laid
  along the features, read back the entry they came from.
-/
import proofs.«416410_j87162066305236_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.EdgeUpdate.KernelOps

open Cert.KernelIdeal Cert.KernelIdeal.Facts₀ Idealize.ShloMosaic Idealize.ShloMosaic.ValueIdx
open scoped BigOperators

/-! ## The block product -/

theorem lhs_dot_0 (i : S1600x128.Idx) (q : dot_S1600x128_S128x128_S1600x128_1_0_0_1_n_n.contr.Idx) :
    (dot_S1600x128_S128x128_S1600x128_1_0_0_1_n_n.lhsIdx i q 0).val = (i 0).val := by
  unfold DotDims.lhsIdx
  rw [dif_neg (show ¬(0 : Fin S1600x128.rank) ∈ dot_S1600x128_S128x128_S1600x128_1_0_0_1_n_n.lhsBatch by decide), dif_pos (show (0 : Fin S1600x128.rank) ∈ dot_S1600x128_S128x128_S1600x128_1_0_0_1_n_n.lhsNonContracting by decide)]
  rfl
theorem lhs_dot_1 (i : S1600x128.Idx) (q : dot_S1600x128_S128x128_S1600x128_1_0_0_1_n_n.contr.Idx) :
    (dot_S1600x128_S128x128_S1600x128_1_0_0_1_n_n.lhsIdx i q 1).val = (q ⟨0, by decide⟩).val :=
  dot_S1600x128_S128x128_S1600x128_1_0_0_1_n_n.lhsIdx_val_of_single rfl i q
theorem rhs_dot_0 (i : S1600x128.Idx) (q : dot_S1600x128_S128x128_S1600x128_1_0_0_1_n_n.contr.Idx) :
    (dot_S1600x128_S128x128_S1600x128_1_0_0_1_n_n.rhsIdx i q 0).val = (q ⟨0, by decide⟩).val :=
  dot_S1600x128_S128x128_S1600x128_1_0_0_1_n_n.rhsIdx_val_of_single rfl i q
theorem rhs_dot_1 (i : S1600x128.Idx) (q : dot_S1600x128_S128x128_S1600x128_1_0_0_1_n_n.contr.Idx) :
    (dot_S1600x128_S128x128_S1600x128_1_0_0_1_n_n.rhsIdx i q 1).val = (i 1).val := by
  unfold DotDims.rhsIdx
  rw [dif_neg (show ¬(1 : Fin S128x128.rank) ∈ dot_S1600x128_S128x128_S1600x128_1_0_0_1_n_n.rhsBatch by decide), dif_pos (show (1 : Fin S128x128.rank) ∈ dot_S1600x128_S128x128_S1600x128_1_0_0_1_n_n.rhsNonContracting by decide)]
  rfl

/-- Entry (p, q) of a [1600, 128] × [128, 128] product accumulated into zero: `Σ k, A[p, k] · B[k, q]`. -/
theorem matmul_at (A : FVec Ideal S1600x128 .f32) (B : FVec Ideal S128x128 .f32) (p : Fin 1600) (q : Fin 128) :
    matmul dot_S1600x128_S128x128_S1600x128_1_0_0_1_n_n (some .fp32) A B (constant S1600x128 .f32 0x00000000#32) (ix2 p q)
      = ∑ k : Fin 128, A (ix2 p k) * B (ix2 k q) := by
  simp only [matmul]
  rw [Ideal.matmul_constant_zero_apply, ← Equiv.sum_comp (ValueIdx.contrEquiv1 dot_S1600x128_S128x128_S1600x128_1_0_0_1_n_n 128 rfl rfl).symm]
  refine Finset.sum_congr rfl fun k _ => ?_
  have hk := ValueIdx.contrEquiv1_symm_val dot_S1600x128_S128x128_S1600x128_1_0_0_1_n_n 128 rfl rfl k
  have el : dot_S1600x128_S128x128_S1600x128_1_0_0_1_n_n.lhsIdx (ix2 p q) ((ValueIdx.contrEquiv1 dot_S1600x128_S128x128_S1600x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1600x128_S128x128_S1600x128_1_0_0_1_n_n.rhsIdx (ix2 p q) ((ValueIdx.contrEquiv1 dot_S1600x128_S128x128_S1600x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The sum along the features -/

/-- Row `p` of a [1600, 128] block summed along its 128 features. -/
theorem laneSum_at (X : FVec Ideal S1600x128 .f32) (h : S1600x128.Reduces [1] S1600) (hφ : FKind.Formats .f32)
    (hacc : (0x00000000#32 : BitVec 32) = 0x00000000#32) (p : Fin 1600) :
    multiReduction .add [1] S1600 X 0x00000000#32 h hφ hacc (ix1 p) = ∑ q : Fin 128, X (ix2 p q) := by
  refine (Ideal.multiReduction_add_single X 0x00000000#32 h hφ hacc (ix1 p)).trans ?_
  refine Finset.sum_congr rfl fun k _ => ?_
  exact congrArg X (funext fun a => Fin.ext (by match a with | ⟨0, _⟩ => rfl | ⟨1, _⟩ => rfl))

/-! ## Layouts -/

/-- A length-128 vector laid along every row: entry (p, q) is the vector's entry q. -/
theorem rowVec_at {α : Type} (P : S128.Idx → α) (p : Fin 1600) (q : Fin 128) :
    broadcastTo S1600x128 (shapeCast S1x128 P shapeCasts_S128_S1x128) broadcasts_S1x128_S1600x128 (ix2 p q) = P (ix1 q) := by
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (128 : Nat) = 1 then 0 else q.val); rw [if_neg (by decide)])).trans ?_
  exact shapeCast_apply _ _ (ix2 (0 : Fin 1) q) (ix1 q) (by
    rw [Shape.rowMajor_val_one, Shape.rowMajor_val_two]; show q.val = 0 * 128 + q.val; omega)

/-- A per-row scalar column laid along the features: entry (p, q) is row p's scalar. -/
theorem colVec_at {α : Type} (Z : S1600x1.Idx → α) (p : Fin 1600) (q : Fin 128) :
    broadcastTo S1600x128 Z broadcasts_S1600x1_S1600x128 (ix2 p q) = Z (ix2 p (0 : Fin 1)) :=
  broadcastTo_apply _ _ (ix2 p q) (ix2 p (0 : Fin 1)) (fun a => match a with
    | ⟨0, _⟩ => by show p.val = (if (1600 : Nat) = 1 then 0 else p.val); rw [if_neg (by decide)]
    | ⟨1, _⟩ => by show 0 = (if (1 : Nat) = 1 then 0 else q.val); rw [if_pos rfl])

/-- A length-1600 vector stood up as a column. -/
theorem asCol_at {α : Type} (R : S1600.Idx → α) (p : Fin 1600) :
    shapeCast S1600x1 R shapeCasts_S1600_S1600x1 (ix2 p (0 : Fin 1)) = R (ix1 p) :=
  shapeCast_apply _ _ (ix2 p (0 : Fin 1)) (ix1 p) (by
    rw [Shape.rowMajor_val_one, Shape.rowMajor_val_two]; show p.val = p.val * 1 + 0; omega)

end Cert.EdgeUpdate.KernelOps

end
-- ==== Proof.EdgeUpdate.lean ====
/-
  One edge's update, as a function of rows.

  An edge `r` carries a feature row `e = efeat[r, :]`, and the two node rows `s = nfeat[src r, :]`,
  `d = nfeat[dst r, :]` its endpoints select. The update is
      h   = e · W1[0:128] + s · W1[128:256] + d · W1[256:384] + b1            (the concatenated linear layer, split in three)
      a   = h · logistic h                                                       (SiLU)
      y   = a · W2 + b2
      out = (y − mean y) · rsqrt (var y + ε) · scale + bias + e                  (LayerNorm over the 128 features, then the residual)
  with `mean y = (Σ y) / 128`, `var y = (Σ (y − mean y)²) / 128`. Every operation is the exact one on the
  extended reals; `128` and `ε` stay the binary words both programs carry, so nothing here evaluates a literal.
  Nothing in a row's update looks at another row: that is why cutting the edges into blocks of 1600 changes nothing.
-/
import Idealize.ShloMosaic.PureOps.Ideal
import Idealize.ShloMosaic.Lib.ValueIdx

noncomputable section

namespace Cert.EdgeUpdate

open Idealize.ShloMosaic Idealize.ShloMosaic.ValueIdx
open scoped BigOperators

/-- The divisor `128.0` of both means, as its binary word. -/
abbrev c128 : EReal := Ideal.ofBits .f32 0x43000000#32
/-- LayerNorm's `ε`, as its binary word. -/
abbrev lnEps : EReal := Ideal.ofBits .f32 0x3727C5AC#32

/-- The first linear layer at hidden unit `k`: the three 128-term products summed left to right, then the bias. -/
def hidden (e s d : Fin 128 → EReal) (Wf Ws Wd : Fin 128 → Fin 128 → EReal) (b1 : Fin 128 → EReal) (k : Fin 128) : EReal :=
  (∑ j : Fin 128, e j * Wf j k) + (∑ j : Fin 128, s j * Ws j k) + (∑ j : Fin 128, d j * Wd j k) + b1 k

/-- SiLU: `x · logistic x`. -/
def silu (x : EReal) : EReal := x * Ideal.logistic x

/-- The second linear layer at feature `q`. -/
def outLin (a : Fin 128 → EReal) (W2 : Fin 128 → Fin 128 → EReal) (b2 : Fin 128 → EReal) (q : Fin 128) : EReal :=
  (∑ k : Fin 128, a k * W2 k q) + b2 q

/-- The mean of a row of 128 features. -/
def mean (y : Fin 128 → EReal) : EReal := Ideal.div (∑ q : Fin 128, y q) c128

/-- Its (biased) variance. -/
def var (y : Fin 128 → EReal) : EReal := Ideal.div (∑ q : Fin 128, (y q - mean y) * (y q - mean y)) c128

/-- LayerNorm of a row, at feature `q`. -/
def layerNorm (y sc bi : Fin 128 → EReal) (q : Fin 128) : EReal :=
  (y q - mean y) * Ideal.rsqrt (var y + lnEps) * sc q + bi q

/-- The row after the second linear layer. -/
def yRow (e s d : Fin 128 → EReal) (Wf Ws Wd : Fin 128 → Fin 128 → EReal) (b1 : Fin 128 → EReal)
    (W2 : Fin 128 → Fin 128 → EReal) (b2 : Fin 128 → EReal) (q : Fin 128) : EReal :=
  outLin (fun k => silu (hidden e s d Wf Ws Wd b1 k)) W2 b2 q

/-- One edge's updated feature `q`. -/
def edgeRow (e s d : Fin 128 → EReal) (Wf Ws Wd : Fin 128 → Fin 128 → EReal) (b1 : Fin 128 → EReal)
    (W2 : Fin 128 → Fin 128 → EReal) (b2 sc bi : Fin 128 → EReal) (q : Fin 128) : EReal :=
  layerNorm (yRow e s d Wf Ws Wd b1 W2 b2) sc bi q + e q

/-- Row `o + j` of the stacked weight `W1` (three 128-row slabs: `o` is 0, 128 or 256). -/
abbrev slabRow (o : Nat) (h : o + 128 ≤ 384) (j : Fin 128) : Fin 384 := ⟨o + j.val, by have := j.isLt; omega⟩

/-- The whole update at edge `r`, feature `q`, from the arrays: `src` and `dst` are the two gathered
    [600000, 128] tables, whatever computed them. -/
def updateAt (ef src dst : (⟨2, ![600000, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 sc bi : (⟨1, ![128]⟩ : Shape).Idx → EReal) (r : Fin 600000) (q : Fin 128) : EReal :=
  edgeRow (fun j => ef (ix2 r j)) (fun j => src (ix2 r j)) (fun j => dst (ix2 r j))
    (fun j k => W1 (ix2 (slabRow 0 (by decide) j) k)) (fun j k => W1 (ix2 (slabRow 128 (by decide) j) k))
    (fun j k => W1 (ix2 (slabRow 256 (by decide) j) k)) (fun k => b1 (ix1 k))
    (fun k q => W2 (ix2 k q)) (fun q => b2 (ix1 q)) (fun q => sc (ix1 q)) (fun q => bi (ix1 q)) q

/-- … and as an array. -/
def update (ef src dst : (⟨2, ![600000, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 sc bi : (⟨1, ![128]⟩ : Shape).Idx → EReal) : (⟨2, ![600000, 128]⟩ : Shape).Idx → EReal :=
  fun i => updateAt ef src dst W1 b1 W2 b2 sc bi (i 0) (i 1)

theorem update_ix2 (ef src dst : (⟨2, ![600000, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 sc bi : (⟨1, ![128]⟩ : Shape).Idx → EReal) (r : Fin 600000) (q : Fin 128) :
    update ef src dst W1 b1 W2 b2 sc bi (ix2 r q) = updateAt ef src dst W1 b1 W2 b2 sc bi r q := rfl

end Cert.EdgeUpdate

end
-- ==== Proof.KernelRow.lean ====
/-
  The kernel body on one block, read row by row: entry (p, q) of what the body stores is the edge update of row p of
  its three [1600, 128] operand blocks — the two linear layers with SiLU between them first, then LayerNorm over that
  row's 128 features and the residual.
-/
import proofs.«416410_j87162066305236_4_alg».proof.Proof.Gen.KernelIdeal.Value
import proofs.«416410_j87162066305236_4_alg».proof.Proof.KernelOps
import proofs.«416410_j87162066305236_4_alg».proof.Proof.EdgeUpdate

noncomputable section

namespace Cert.EdgeUpdate.KernelRow

open Cert.KernelIdeal Cert.KernelIdeal.Facts₀ Idealize.ShloMosaic Idealize.ShloMosaic.ValueIdx
open Cert.EdgeUpdate Cert.EdgeUpdate.KernelOps
open scoped BigOperators

/-- The lane-by-lane logistic, read at an index. -/
theorem logistic_at {s : Shape} (x : FVec Ideal s .f32) (i : s.Idx) : logistic x i = Ideal.logistic (x i) := rfl

/-- After both linear layers: entry (p, q) of the body's `y` is `yRow` of row p of the operand blocks. -/
theorem y_at (P0 P1 P2 : Vec Ideal S1600x128 .f32) (P3 P4 P5 : Vec Ideal S128x128 .f32) (P6 : Vec Ideal S128 .f32)
    (P7 : Vec Ideal S128x128 .f32) (P8 : Vec Ideal S128 .f32) (p : Fin 1600) (q : Fin 128) :
    Gen.k0_pay2 (F := Ideal) P0 P1 P2 P3 P4 P5 P6 P7 P8 (ix2 p q)
      = yRow (fun j => P0 (ix2 p j)) (fun j => P1 (ix2 p j)) (fun j => P2 (ix2 p j))
          (fun j k => P3 (ix2 j k)) (fun j k => P4 (ix2 j k)) (fun j k => P5 (ix2 j k)) (fun k => P6 (ix1 k))
          (fun k q => P7 (ix2 k q)) (fun q => P8 (ix1 q)) q := by
  unfold Gen.k0_pay2
  simp only [shapeCast_self, addf_apply, mulf_apply, logistic_at, matmul_at, rowVec_at]
  rfl

/-- The stored block at (p, q): LayerNorm of row p of `y` over its 128 features, scaled and shifted, plus the residual. -/
theorem block_at (P0 P1 P2 : Vec Ideal S1600x128 .f32) (P3 P4 P5 : Vec Ideal S128x128 .f32) (P6 : Vec Ideal S128 .f32)
    (P7 : Vec Ideal S128x128 .f32) (P8 P9 P10 : Vec Ideal S128 .f32) (p : Fin 1600) (q : Fin 128) :
    Value.E9 (F := Ideal) P0 P1 P2 P3 P4 P5 P6 P7 P8 P9 P10 (ix2 p q)
      = layerNorm (fun q' => Gen.k0_pay2 (F := Ideal) P0 P1 P2 P3 P4 P5 P6 P7 P8 (ix2 p q'))
          (fun q => P9 (ix1 q)) (fun q => P10 (ix1 q)) q + P0 (ix2 p q) := by
  have i0 : Value.ix9_0 (ix2 p q) = ix2 p q := funext fun a => by match a with | ⟨0, _⟩ => rfl | ⟨1, _⟩ => rfl
  have i1 : Value.ix9_1 (ix2 p q) = ix1 p := funext fun a => by match a with | ⟨0, _⟩ => rfl
  have i2 : Value.ix9_2 (ix2 p q) = ix1 p := funext fun a => by match a with | ⟨0, _⟩ => rfl
  have i3 : Value.ix9_3 (ix2 p q) = ix2 p (0 : Fin 1) := funext fun a => by match a with | ⟨0, _⟩ => rfl | ⟨1, _⟩ => rfl
  have i4 : Value.ix9_4 (ix2 p q) = ix1 q := funext fun a => by match a with | ⟨0, _⟩ => rfl
  have i5 : Value.ix9_5 (ix2 p q) = ix1 q := funext fun a => by match a with | ⟨0, _⟩ => rfl
  have i6 : Value.ix9_6 (ix2 p q) = ix2 p q := funext fun a => by match a with | ⟨0, _⟩ => rfl | ⟨1, _⟩ => rfl
  simp only [Value.E9, i0, i1, i2, i3, i4, i5, i6]
  rw [laneSum_at, laneSum_at]
  simp only [mulf_apply, subf_apply, divf_apply, colVec_at, asCol_at, broadcast_apply]
  rw [laneSum_at]
  rfl

/-! ## The loads -/

theorem zero2 : (![0, 0] : Fin 2 → Nat) = fun _ => 0 := funext fun a => by fin_cases a <;> rfl
theorem zero1 : (![0] : Fin 1 → Nat) = fun _ => 0 := funext fun a => by fin_cases a; rfl

/-- The load of rows 0 … 127 of the stacked weight block. -/
theorem slab0_at (x3 : Vec Ideal S384x128 .f32) (j k : Fin 128) :
    View.ld x3 Gen.r0_1 (ix2 j k) = x3 (ix2 (slabRow 0 (by decide) j) k) :=
  congrArg x3 (funext fun a => Fin.ext (by
    match a with
    | ⟨0, _⟩ => show 0 + 1 * j.val = 0 + j.val; omega
    | ⟨1, _⟩ => show 0 + 1 * k.val = k.val; omega))

/-- … of rows 128 … 255 … -/
theorem slab1_at (x3 : Vec Ideal S384x128 .f32) (j k : Fin 128) :
    View.ld x3 Gen.r0_2 (ix2 j k) = x3 (ix2 (slabRow 128 (by decide) j) k) :=
  congrArg x3 (funext fun a => Fin.ext (by
    match a with
    | ⟨0, _⟩ => show 128 + 1 * j.val = 128 + j.val; omega
    | ⟨1, _⟩ => show 0 + 1 * k.val = k.val; omega))

/-- … and of rows 256 … 383. -/
theorem slab2_at (x3 : Vec Ideal S384x128 .f32) (j k : Fin 128) :
    View.ld x3 Gen.r0_3 (ix2 j k) = x3 (ix2 (slabRow 256 (by decide) j) k) :=
  congrArg x3 (funext fun a => Fin.ext (by
    match a with
    | ⟨0, _⟩ => show 256 + 1 * j.val = 256 + j.val; omega
    | ⟨1, _⟩ => show 0 + 1 * k.val = k.val; omega))

/-! ## The body's result -/

/-- What the body leaves in the output buffer, at (p, q): the edge update of row p of the three operand blocks, with
    the whole weight, bias, scale and shift blocks. -/
theorem out_at (x0 x1 x2 : Vec Ideal S1600x128 .f32) (x3 : Vec Ideal S384x128 .f32) (x4 : Vec Ideal S128 .f32)
    (x5 : Vec Ideal S128x128 .f32) (x6 x7 x8 : Vec Ideal S128 .f32) (p : Fin 1600) (q : Fin 128) :
    Gen.out0_9 (F := Ideal) x0 x1 x2 x3 x4 x5 x6 x7 x8 (ix2 p q)
      = edgeRow (fun j => x0 (ix2 p j)) (fun j => x1 (ix2 p j)) (fun j => x2 (ix2 p j))
          (fun j k => x3 (ix2 (slabRow 0 (by decide) j) k)) (fun j k => x3 (ix2 (slabRow 128 (by decide) j) k))
          (fun j k => x3 (ix2 (slabRow 256 (by decide) j) k)) (fun k => x4 (ix1 k))
          (fun k q => x5 (ix2 k q)) (fun q => x6 (ix1 q)) (fun q => x7 (ix1 q)) (fun q => x8 (ix1 q)) q := by
  unfold Gen.out0_9
  have s0 := slab0_at x3
  have s1 := slab1_at x3
  have s2 := slab2_at x3
  simp only [View.ld_unit_zero (S := S1600x128) zero2, View.ld_unit_zero (S := S128x128) zero2,
    View.ld_unit_zero (S := S128) zero1]
  generalize View.ld x3 Gen.r0_1 = Wf at s0 ⊢
  generalize View.ld x3 Gen.r0_2 = Ws at s1 ⊢
  generalize View.ld x3 Gen.r0_3 = Wd at s2 ⊢
  rw [Value.canon9_eq, block_at]
  simp only [y_at, s0, s1, s2]
  rfl

end Cert.EdgeUpdate.KernelRow

end
-- ==== Proof.KernelArray.lean ====
/-
  From blocks to the array. Grid point t of the 375 stages rows 1600·t … 1600·t + 1599 of the three [600000, 128]
  operands and the whole of every weight, bias, scale and shift; what it writes back is therefore rows
  1600·t … 1600·t + 1599 of the edge update of the arrays the region finds. The 375 blocks tile the 600000 rows
  (row r lies in block r / 1600), so after the run the output array is the edge update, whole.
-/
import proofs.«416410_j87162066305236_4_alg».proof.Proof.Gen.KernelIdeal.Value
import proofs.«416410_j87162066305236_4_alg».proof.Proof.KernelRow
import proofs.«416410_j87162066305236_4_alg».proof.Proof.EdgeUpdate

set_option maxRecDepth 16384

noncomputable section

namespace Cert.EdgeUpdate.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeUpdate

variable (m : (ℓ : Loc nD τ sig) → Buf (Elt Ideal) ℓ) (ρ : Dev nD → PrngReg)

/-- Row p of block t, as a row of the whole array. -/
abbrev rowOf (t : Fin cfg0.N) (p : Fin 1600) : Fin 600000 :=
  ⟨t.val * 1600 + p.val, by have ht : t.val < 375 := t.isLt; have hp := p.isLt; omega⟩

/-- The printed index maps, decided over the 375 points: the three edge operands and the output move one block of rows
    per point; every other operand stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = t.val ∧ win0_9.index t (1 : Fin 2) = 0 :=
  (by decide +kernel : ∀ t : Fin grid0.N, _)

/-! ## Each operand's block at a point, read off its array -/

theorem edge_blk (c : Dev nD) (t : Fin cfg0.N) (p : Fin 1600) (j : Fin 128) :
    iblk m c 0 t (ix2 p j) = V m c main_arg0 (ix2 (rowOf t p) j) := by
  show V m c main_arg0 (((cfg0.win 0).blk t).view.emb (ix2 p j)) = _
  obtain ⟨e0, e1, -⟩ := idx_facts t
  refine congrArg (V m c main_arg0) (funext fun a => Fin.ext ?_)
  match a with
  | ⟨0, _⟩ => show win0_0.index t (0 : Fin 2) * 1600 + 1 * p.val = t.val * 1600 + p.val; omega
  | ⟨1, _⟩ => show win0_0.index t (1 : Fin 2) * 128 + 1 * j.val = j.val; omega

theorem src_blk (c : Dev nD) (t : Fin cfg0.N) (p : Fin 1600) (j : Fin 128) :
    iblk m c 1 t (ix2 p j) = V m c main_v6 (ix2 (rowOf t p) j) := by
  show V m c main_v6 (((cfg0.win 1).blk t).view.emb (ix2 p j)) = _
  obtain ⟨-, -, e0, e1, -⟩ := idx_facts t
  refine congrArg (V m c main_v6) (funext fun a => Fin.ext ?_)
  match a with
  | ⟨0, _⟩ => show win0_1.index t (0 : Fin 2) * 1600 + 1 * p.val = t.val * 1600 + p.val; omega
  | ⟨1, _⟩ => show win0_1.index t (1 : Fin 2) * 128 + 1 * j.val = j.val; omega

theorem dst_blk (c : Dev nD) (t : Fin cfg0.N) (p : Fin 1600) (j : Fin 128) :
    iblk m c 2 t (ix2 p j) = V m c main_v13 (ix2 (rowOf t p) j) := by
  show V m c main_v13 (((cfg0.win 2).blk t).view.emb (ix2 p j)) = _
  obtain ⟨-, -, -, -, e0, e1, -⟩ := idx_facts t
  refine congrArg (V m c main_v13) (funext fun a => Fin.ext ?_)
  match a with
  | ⟨0, _⟩ => show win0_2.index t (0 : Fin 2) * 1600 + 1 * p.val = t.val * 1600 + p.val; omega
  | ⟨1, _⟩ => show win0_2.index t (1 : Fin 2) * 128 + 1 * j.val = j.val; omega

theorem w1_blk (c : Dev nD) (t : Fin cfg0.N) (a' : Fin 384) (k : Fin 128) :
    iblk m c 3 t (ix2 a' k) = V m c main_arg4 (ix2 a' k) := by
  show V m c main_arg4 (((cfg0.win 3).blk t).view.emb (ix2 a' k)) = _
  obtain ⟨-, -, -, -, -, -, e0, e1, -⟩ := idx_facts t
  refine congrArg (V m c main_arg4) (funext fun a => Fin.ext ?_)
  match a with
  | ⟨0, _⟩ => show win0_3.index t (0 : Fin 2) * 384 + 1 * a'.val = a'.val; omega
  | ⟨1, _⟩ => show win0_3.index t (1 : Fin 2) * 128 + 1 * k.val = k.val; omega

theorem b1_blk (c : Dev nD) (t : Fin cfg0.N) (k : Fin 128) :
    iblk m c 4 t (ix1 k) = V m c main_arg5 (ix1 k) := by
  show V m c main_arg5 (((cfg0.win 4).blk t).view.emb (ix1 k)) = _
  obtain ⟨-, -, -, -, -, -, -, -, e0, -⟩ := idx_facts t
  refine congrArg (V m c main_arg5) (funext fun a => Fin.ext ?_)
  match a with
  | ⟨0, _⟩ => show win0_4.index t (0 : Fin 1) * 128 + 1 * k.val = k.val; omega

theorem w2_blk (c : Dev nD) (t : Fin cfg0.N) (k q : Fin 128) :
    iblk m c 5 t (ix2 k q) = V m c main_arg6 (ix2 k q) := by
  show V m c main_arg6 (((cfg0.win 5).blk t).view.emb (ix2 k q)) = _
  obtain ⟨-, -, -, -, -, -, -, -, -, e0, e1, -⟩ := idx_facts t
  refine congrArg (V m c main_arg6) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem b2_blk (c : Dev nD) (t : Fin cfg0.N) (q : Fin 128) :
    iblk m c 6 t (ix1 q) = V m c main_arg7 (ix1 q) := by
  show V m c main_arg7 (((cfg0.win 6).blk t).view.emb (ix1 q)) = _
  obtain ⟨-, -, -, -, -, -, -, -, -, -, -, e0, -⟩ := idx_facts t
  refine congrArg (V m c main_arg7) (funext fun a => Fin.ext ?_)
  match a with
  | ⟨0, _⟩ => show win0_6.index t (0 : Fin 1) * 128 + 1 * q.val = q.val; omega

theorem scale_blk (c : Dev nD) (t : Fin cfg0.N) (q : Fin 128) :
    iblk m c 7 t (ix1 q) = V m c main_arg8 (ix1 q) := by
  show V m c main_arg8 (((cfg0.win 7).blk t).view.emb (ix1 q)) = _
  obtain ⟨-, -, -, -, -, -, -, -, -, -, -, -, e0, -⟩ := idx_facts t
  refine congrArg (V m c main_arg8) (funext fun a => Fin.ext ?_)
  match a with
  | ⟨0, _⟩ => show win0_7.index t (0 : Fin 1) * 128 + 1 * q.val = q.val; omega

theorem shift_blk (c : Dev nD) (t : Fin cfg0.N) (q : Fin 128) :
    iblk m c 8 t (ix1 q) = V m c main_arg9 (ix1 q) := by
  show V m c main_arg9 (((cfg0.win 8).blk t).view.emb (ix1 q)) = _
  obtain ⟨-, -, -, -, -, -, -, -, -, -, -, -, -, e0, -⟩ := idx_facts t
  refine congrArg (V m c main_arg9) (funext fun a => Fin.ext ?_)
  match a with
  | ⟨0, _⟩ => show win0_8.index t (0 : Fin 1) * 128 + 1 * q.val = q.val; omega

/-! ## What a point writes back -/

/-- The edge update of the arrays as the region finds them. -/
abbrev found (c : Dev nD) : S600000x128.Idx → EReal :=
  update (V m c main_arg0) (V m c main_v6) (V m c main_v13) (V m c main_arg4) (V m c main_arg5) (V m c main_arg6)
    (V m c main_arg7) (V m c main_arg8) (V m c main_arg9)

/-- Point t writes back block t of the edge update. -/
theorem flushed_eq (c : Dev nD) (t : Fin cfg0.N) :
    (dats m 0 c).flushed 9 t = ((cfg0.win 9).blk t).view.read (Elt Ideal) (found m c) := by
  rw [Value.flushed9]
  funext y
  obtain ⟨p, q, rfl⟩ : ∃ (p : Fin 1600) (q : Fin 128), y = ix2 p q := ⟨y 0, y 1, eq_ix2 y⟩
  show out0_9 (iblk m c 0 t) (iblk m c 1 t) (iblk m c 2 t) (iblk m c 3 t) (iblk m c 4 t) (iblk m c 5 t)
      (iblk m c 6 t) (iblk m c 7 t) (iblk m c 8 t) (ix2 p q)
    = found m c (((cfg0.win 9).blk t).view.emb (ix2 p q))
  have e9 : ((cfg0.win 9).blk t).view.emb (ix2 p q) = ix2 (rowOf t p) q := by
    obtain ⟨-, -, -, -, -, -, -, -, -, -, -, -, -, -, e0, e1⟩ := idx_facts t
    funext a; apply Fin.ext
    match a with
    | ⟨0, _⟩ => show win0_9.index t (0 : Fin 2) * 1600 + 1 * p.val = t.val * 1600 + p.val; omega
    | ⟨1, _⟩ => show win0_9.index t (1 : Fin 2) * 128 + 1 * q.val = q.val; omega
  rw [e9]
  refine (KernelRow.out_at (iblk m c 0 t) (iblk m c 1 t) (iblk m c 2 t) (iblk m c 3 t) (iblk m c 4 t) (iblk m c 5 t)
      (iblk m c 6 t) (iblk m c 7 t) (iblk m c 8 t) p q).trans ?_
  simp only [edge_blk, src_blk, dst_blk, w1_blk, b1_blk, w2_blk, b2_blk, scale_blk, shift_blk]
  rfl

/-! ## The blocks tile the array -/

/-- An index of the array is in point t's block iff each coordinate is in the block's range on its axis. -/
theorem mem_blk (t : Fin cfg0.N) (i : S600000x128.Idx) :
    i ∈ ((cfg0.win 9).blk t).view.set ↔ ∀ a : Fin 2, win0_9.index t a * S1600x128.size a ≤ (i a).val
      ∧ (i a).val < win0_9.index t a * S1600x128.size a + S1600x128.size a := by
  show i ∈ ((View.whole main_v14).slice (win0_9.rect t)).set ↔ _
  rw [View.set_slice_whole, Rect.mem_set_unit]
  exact Iff.rfl

/-- Row r lies in the block of point r / 1600. -/
theorem cover (i : S600000x128.Idx) :
    ∃ t : Fin cfg0.N, (cfg0.win 9).flush t = true ∧ i ∈ ((cfg0.win 9).blk t).view.set := by
  have hi0 : (i 0).val < 600000 := (i 0).isLt
  have hi1 : (i 1).val < 128 := (i 1).isLt
  have ht : (i 0).val / 1600 < 375 := by omega
  obtain ⟨-, -, -, -, -, -, -, -, -, -, -, -, -, -, e0, e1⟩ := idx_facts ⟨(i 0).val / 1600, ht⟩
  refine ⟨⟨(i 0).val / 1600, ht⟩, flush0_9 _, ?_⟩
  rw [mem_blk]
  intro a
  match a with
  | ⟨0, _⟩ =>
    show win0_9.index ⟨(i 0).val / 1600, ht⟩ (0 : Fin 2) * 1600 ≤ (i 0).val
      ∧ (i 0).val < win0_9.index ⟨(i 0).val / 1600, ht⟩ (0 : Fin 2) * 1600 + 1600
    have e0' : win0_9.index ⟨(i 0).val / 1600, ht⟩ (0 : Fin 2) = (i 0).val / 1600 := e0
    omega
  | ⟨1, _⟩ =>
    show win0_9.index ⟨(i 0).val / 1600, ht⟩ (1 : Fin 2) * 128 ≤ (i 1).val
      ∧ (i 1).val < win0_9.index ⟨(i 0).val / 1600, ht⟩ (1 : Fin 2) * 128 + 128
    omega

/-! ## The array after the run, and the run -/

/-- After the run the output array is the edge update of the arrays the region found. -/
theorem final (c : Dev nD) : (dats m 0 c).arrAt 9 cfg0.N = found m c :=
  (dats m 0 c).arrAt_eq_of_cover 9 (found m c) (fun t _ => flushed_eq m c t) cover

/-- The kernel's run: it terminates, the output array ends at the edge update, the arguments unchanged. -/
theorem run : θ_run defs (onTc (τ := τ) (main (F := Ideal))) ⟨m, fun _ => 0, ρ⟩ fun r => ∀ c : Dev nD,
      r.2.mem ((c : Thread nD τ).loc main_v14) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.EdgeUpdate.KernelArray

end
-- ==== Proof.RefRow.lean ====
/-
  The reference, read row by row: entry (r, q) of its result is the edge update of row r of the edge features and of the
  two gathered node tables. Its SiLU arrives expanded, `x · (1 / (1 + exp (−x)))`, which is `x · logistic x` on every
  extended real once the word for `1.0` is read as `1`; its sums start from the word for `0.0`, which adds nothing.
-/
import proofs.«416410_j87162066305236_4_alg».proof.Proof.Gen.ReferenceIdeal.Read
import proofs.«416410_j87162066305236_4_alg».proof.Proof.EdgeUpdate

noncomputable section

namespace Cert.EdgeUpdate.RefRow

open Cert.ReferenceIdeal Cert.ReferenceIdeal.Read Idealize.ShloMosaic Idealize.ShloMosaic.ValueIdx
open Cert.EdgeUpdate
open scoped BigOperators

/-! ## Two words -/

/-- The word for `1.0` denotes `1`. -/
theorem one_f32 : Ideal.ofBits .f32 0x3F800000#32 = 1 := by
  simp [Ideal.ofBits, Ideal.ieee, -EReal.coe_mul]; norm_num

/-- jax's expansion of SiLU is `x · logistic x`. -/
theorem silu_expanded (x : EReal) :
    x * Ideal.div (Ideal.ofBits .f32 0x3F800000#32) (Ideal.ofBits .f32 0x3F800000#32 + Ideal.exp (-x)) = silu x := by
  rw [one_f32]; rfl

/-! ## Where each operation reads, at coordinates -/

theorem lidx17 (r : Fin 600000) (k j : Fin 128) : lidx_main_v17 (ix2 r k) j = ix2 r j :=
  funext fun a => by match a with | ⟨0, _⟩ => rfl | ⟨1, _⟩ => rfl
theorem ridx17 (r : Fin 600000) (k j : Fin 128) : ridx_main_v17 (ix2 r k) j = ix2 j k :=
  funext fun a => by match a with | ⟨0, _⟩ => rfl | ⟨1, _⟩ => rfl
theorem lidx18 (r : Fin 600000) (k j : Fin 128) : lidx_main_v18 (ix2 r k) j = ix2 r j :=
  funext fun a => by match a with | ⟨0, _⟩ => rfl | ⟨1, _⟩ => rfl
theorem ridx18 (r : Fin 600000) (k j : Fin 128) : ridx_main_v18 (ix2 r k) j = ix2 j k :=
  funext fun a => by match a with | ⟨0, _⟩ => rfl | ⟨1, _⟩ => rfl
theorem lidx20 (r : Fin 600000) (k j : Fin 128) : lidx_main_v20 (ix2 r k) j = ix2 r j :=
  funext fun a => by match a with | ⟨0, _⟩ => rfl | ⟨1, _⟩ => rfl
theorem ridx20 (r : Fin 600000) (k j : Fin 128) : ridx_main_v20 (ix2 r k) j = ix2 j k :=
  funext fun a => by match a with | ⟨0, _⟩ => rfl | ⟨1, _⟩ => rfl
theorem lidx26 (r : Fin 600000) (q k : Fin 128) : lidx_main_v26 (ix2 r q) k = ix2 r k :=
  funext fun a => by match a with | ⟨0, _⟩ => rfl | ⟨1, _⟩ => rfl
theorem ridx26 (r : Fin 600000) (q k : Fin 128) : ridx_main_v26 (ix2 r q) k = ix2 k q :=
  funext fun a => by match a with | ⟨0, _⟩ => rfl | ⟨1, _⟩ => rfl

theorem idx14 (j k : Fin 128) : idx_main_v14 (ix2 j k) = ix2 (slabRow 0 (by decide) j) k :=
  funext fun a => Fin.ext (by match a with | ⟨0, _⟩ => show j.val = 0 + j.val; omega | ⟨1, _⟩ => rfl)
theorem idx15 (j k : Fin 128) : idx_main_v15 (ix2 j k) = ix2 (slabRow 128 (by decide) j) k :=
  funext fun a => Fin.ext (by match a with | ⟨0, _⟩ => rfl | ⟨1, _⟩ => rfl)
theorem idx16 (j k : Fin 128) : idx_main_v16 (ix2 j k) = ix2 (slabRow 256 (by decide) j) k :=
  funext fun a => Fin.ext (by match a with | ⟨0, _⟩ => rfl | ⟨1, _⟩ => rfl)

theorem idx23 (r : Fin 600000) (k : Fin 128) : idx_main_v23 (ix2 r k) = ix2 (0 : Fin 1) k :=
  funext fun a => by match a with | ⟨0, _⟩ => rfl | ⟨1, _⟩ => rfl
theorem idx22 (k : Fin 128) : idx_main_v22 (ix2 (0 : Fin 1) k) = ix1 k :=
  funext fun a => by match a with | ⟨0, _⟩ => rfl
theorem idx28 (r : Fin 600000) (k : Fin 128) : idx_main_v28 (ix2 r k) = ix2 (0 : Fin 1) k :=
  funext fun a => by match a with | ⟨0, _⟩ => rfl | ⟨1, _⟩ => rfl
theorem idx27 (k : Fin 128) : idx_main_v27 (ix2 (0 : Fin 1) k) = ix1 k :=
  funext fun a => by match a with | ⟨0, _⟩ => rfl
theorem idx49 (r : Fin 600000) (k : Fin 128) : idx_main_v49 (ix2 r k) = ix2 (0 : Fin 1) k :=
  funext fun a => by match a with | ⟨0, _⟩ => rfl | ⟨1, _⟩ => rfl
theorem idx48 (k : Fin 128) : idx_main_v48 (ix2 (0 : Fin 1) k) = ix1 k :=
  funext fun a => by match a with | ⟨0, _⟩ => rfl
theorem idx52 (r : Fin 600000) (k : Fin 128) : idx_main_v52 (ix2 r k) = ix2 (0 : Fin 1) k :=
  funext fun a => by match a with | ⟨0, _⟩ => rfl | ⟨1, _⟩ => rfl
theorem idx51 (k : Fin 128) : idx_main_v51 (ix2 (0 : Fin 1) k) = ix1 k :=
  funext fun a => by match a with | ⟨0, _⟩ => rfl

theorem idx34 (r : Fin 600000) (q : Fin 128) : idx_main_v34 (ix2 r q) = ix2 r (0 : Fin 1) :=
  funext fun a => by match a with | ⟨0, _⟩ => rfl | ⟨1, _⟩ => rfl
theorem idx41 (r : Fin 600000) (q : Fin 128) : idx_main_v41 (ix2 r q) = ix2 r (0 : Fin 1) :=
  funext fun a => by match a with | ⟨0, _⟩ => rfl | ⟨1, _⟩ => rfl
theorem idx46 (r : Fin 600000) (q : Fin 128) : idx_main_v46 (ix2 r q) = ix2 r (0 : Fin 1) :=
  funext fun a => by match a with | ⟨0, _⟩ => rfl | ⟨1, _⟩ => rfl
theorem idx31 (r : Fin 600000) : idx_main_v31 (ix2 r (0 : Fin 1)) = ix1 r :=
  funext fun a => by match a with | ⟨0, _⟩ => rfl
theorem idx38 (r : Fin 600000) : idx_main_v38 (ix2 r (0 : Fin 1)) = ix1 r :=
  funext fun a => by match a with | ⟨0, _⟩ => rfl
theorem idx30 (r : Fin 600000) (k : Fin 128) : idx_main_v30 (ix1 r) k = ix2 r k :=
  funext fun a => by match a with | ⟨0, _⟩ => rfl | ⟨1, _⟩ => rfl
theorem idx37 (r : Fin 600000) (k : Fin 128) : idx_main_v37 (ix1 r) k = ix2 r k :=
  funext fun a => by match a with | ⟨0, _⟩ => rfl | ⟨1, _⟩ => rfl

/-! ## The rows -/

section
variable (x0 : (⟨S600000x128, .f32⟩ : BufTy).Contents (Elt Ideal)) (x1 : (⟨S100000x128, .f32⟩ : BufTy).Contents (Elt Ideal))
  (x2 x3 : (⟨S600000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-- After both linear layers: entry (r, q) of the reference's `y` is `yRow` of row r of the edge features and of the
    two gathered tables. -/
theorem y_at (r : Fin 600000) (q : Fin 128) :
    val_main_v29 (F := Ideal) x0 x1 x2 x3 x4 x5 x6 x7 (ix2 r q)
      = yRow (fun j => x0 (ix2 r j)) (fun j => val_main_v6 (F := Ideal) x1 x2 (ix2 r j))
          (fun j => val_main_v13 (F := Ideal) x1 x3 (ix2 r j))
          (fun j k => x4 (ix2 (slabRow 0 (by decide) j) k)) (fun j k => x4 (ix2 (slabRow 128 (by decide) j) k))
          (fun j k => x4 (ix2 (slabRow 256 (by decide) j) k)) (fun k => x5 (ix1 k))
          (fun k q => x6 (ix2 k q)) (fun q => x7 (ix1 q)) q := by
  simp only [val_main_v29_apply, val_main_v26_apply, val_main_v28_apply, val_main_v27_apply, val_main_v25_apply,
    val_main_call0_v5_apply, val_main_call0_v4_apply, val_main_call0_cst_0_apply, val_main_call0_v3_apply,
    val_main_call0_v2_apply, val_main_call0_cst_apply, val_main_call0_v1_apply, val_main_call0_v0_apply,
    val_main_v24_apply, val_main_v23_apply, val_main_v22_apply, val_main_v21_apply, val_main_v20_apply,
    val_main_v19_apply, val_main_v18_apply, val_main_v17_apply, val_main_v16_apply, val_main_v15_apply,
    val_main_v14_apply, lidx17, ridx17, lidx18, ridx18, lidx20, ridx20, lidx26, ridx26, idx14, idx15, idx16,
    idx23, idx22, idx28, idx27, Ideal.addf_def, Ideal.mulf_def, Ideal.hostDivf_def, Ideal.hostUnary_exp_def,
    Ideal.hostNegf_def, Ideal.negf_def, Ideal.ofBits_def, silu_expanded]
  rfl

/-- The reference's result at (r, q): LayerNorm of row r of its `y`, scaled and shifted, plus the residual. -/
theorem out_at (r : Fin 600000) (q : Fin 128) :
    val_main_v54 (F := Ideal) x0 x1 x2 x3 x4 x5 x6 x7 x8 x9 (ix2 r q)
      = layerNorm (fun q' => val_main_v29 (F := Ideal) x0 x1 x2 x3 x4 x5 x6 x7 (ix2 r q'))
          (fun q => x8 (ix1 q)) (fun q => x9 (ix1 q)) q + x0 (ix2 r q) := by
  simp only [val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_cst_6_apply, val_main_v42_apply, val_main_v41_apply,
    val_main_v40_apply, val_main_v39_apply, val_main_cst_5_apply, val_main_v38_apply, val_main_v37_apply,
    val_main_cst_4_apply, val_main_v36_apply, val_main_v35_apply, val_main_v34_apply, val_main_v33_apply,
    val_main_v32_apply, val_main_cst_3_apply, val_main_v31_apply, val_main_v30_apply, val_main_cst_apply,
    idx52, idx51, idx49, idx48, idx46, idx41, idx34, idx38, idx31, idx37, idx30,
    Ideal.addf_def, Ideal.subf_def, Ideal.mulf_def, Ideal.hostDivf_def, Ideal.hostUnary_rsqrt_def, Ideal.ofBits_def,
    Ideal.ofBits_zero_f32, zero_add]
  rfl

/-- The reference's result, as an array, is the edge update of the edge features and the two gathered tables. -/
theorem result_eq :
    val_main_v54 (F := Ideal) x0 x1 x2 x3 x4 x5 x6 x7 x8 x9
      = update x0 (val_main_v6 (F := Ideal) x1 x2) (val_main_v13 (F := Ideal) x1 x3) x4 x5 x6 x7 x8 x9 := by
  funext i
  obtain ⟨r, q, rfl⟩ : ∃ (r : Fin 600000) (q : Fin 128), i = ix2 r q := ⟨i 0, i 1, eq_ix2 i⟩
  rw [out_at, update_ix2]
  simp only [y_at]
  rfl

end

end Cert.EdgeUpdate.RefRow

end
-- ==== Proof.lean ====
/-
  The edge-block update of a message-passing layer, tiled kernel against plain reference, over the extended reals.

  Both programs first gather, on the host and by the very same operations, the node rows the two index vectors select
  (an index below zero is wrapped once by the table's length): two [600000, 128] tables beside the edge features. The
  kernel then updates the edges 1600 at a time over 375 grid points; the reference updates all 600000 at once. The update
  of an edge reads that edge's three rows only — two linear layers with SiLU between them, LayerNorm over the 128
  features, the residual — so each block the kernel writes back is the corresponding rows of the reference's result, and
  the 375 blocks tile the array (`Proof/EdgeUpdate.lean` states the update; `Proof/KernelRow.lean`, `Proof/KernelArray.lean`
  read the kernel, `Proof/RefRow.lean` the reference). No operation is reordered between the two sides — a block product
  accumulated into zero is the reference's contraction, a lane sum is its row sum from zero, the kernel's logistic is
  the reference's `1 / (1 + exp (−x))` — so no law that needs finite operands is used, and the precondition is never opened.
  The idealization rewrote nothing, so `preserves` has nothing to state.
-/
import proofs.«416410_j87162066305236_4_alg».proof.Defs
import proofs.«416410_j87162066305236_4_alg».proof.Proof.Gen.Kernel
import proofs.«416410_j87162066305236_4_alg».proof.Proof.Gen.Kernel.Skeleton
import proofs.«416410_j87162066305236_4_alg».proof.Proof.Gen.Kernel.Launch
import proofs.«416410_j87162066305236_4_alg».proof.Proof.Gen.Kernel.Points
import proofs.«416410_j87162066305236_4_alg».proof.Proof.Gen.Kernel.Frame
import proofs.«416410_j87162066305236_4_alg».proof.Proof.Gen.KernelIdeal
import proofs.«416410_j87162066305236_4_alg».proof.Proof.Gen.KernelIdeal.Skeleton
import proofs.«416410_j87162066305236_4_alg».proof.Proof.Gen.KernelIdeal.Launch
import proofs.«416410_j87162066305236_4_alg».proof.Proof.Gen.KernelIdeal.Points
import proofs.«416410_j87162066305236_4_alg».proof.Proof.Gen.KernelIdeal.Frame
import proofs.«416410_j87162066305236_4_alg».proof.Proof.Gen.ReferenceIdeal
import proofs.«416410_j87162066305236_4_alg».proof.Proof.Gen.Pre_finite_inputs
import proofs.«416410_j87162066305236_4_alg».proof.Proof.Gen.KernelIdeal.Value
import proofs.«416410_j87162066305236_4_alg».proof.Proof.Gen.ReferenceIdeal.Run
import proofs.«416410_j87162066305236_4_alg».proof.Proof.Gen.ReferenceIdeal.Read
import proofs.«416410_j87162066305236_4_alg».proof.Proof.KernelArray
import proofs.«416410_j87162066305236_4_alg».proof.Proof.RefRow
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo
open Cert.EdgeUpdate

/-! ## The gathered tables are the same function of the arguments on both sides -/

section
open Cert.KernelIdeal Cert.KernelIdeal.Gen

variable (m : (ℓ : Loc nD τ sig) → Buf (Elt Ideal) ℓ)

/-- The table of source rows as the kernel's region finds it is the reference's gather of the same arguments. -/
theorem src_found (c : Dev nD) :
    (V m c main_v6 : S600000x128.Idx → EReal)
      = Cert.ReferenceIdeal.Read.val_main_v6 (F := Ideal) (m ((c : Thread nD τ).loc main_arg1)) (m ((c : Thread nD τ).loc main_arg2)) := by
  dsimp only [V, hostOps0]
  after_results
  rfl

/-- … and the table of destination rows likewise. -/
theorem dst_found (c : Dev nD) :
    (V m c main_v13 : S600000x128.Idx → EReal)
      = Cert.ReferenceIdeal.Read.val_main_v13 (F := Ideal) (m ((c : Thread nD τ).loc main_arg1)) (m ((c : Thread nD τ).loc main_arg3)) := by
  dsimp only [V, hostOps0]
  after_results
  rfl

/-- So what the kernel leaves is the edge update of its ARGUMENTS, with the reference's two gathers. -/
theorem found_eq (c : Dev nD) :
    KernelArray.found m c
      = update (m ((c : Thread nD τ).loc main_arg0))
          (Cert.ReferenceIdeal.Read.val_main_v6 (F := Ideal) (m ((c : Thread nD τ).loc main_arg1)) (m ((c : Thread nD τ).loc main_arg2)))
          (Cert.ReferenceIdeal.Read.val_main_v13 (F := Ideal) (m ((c : Thread nD τ).loc main_arg1)) (m ((c : Thread nD τ).loc main_arg3)))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  show update (V m c main_arg0) (V m c main_v6) (V m c main_v13) (V m c main_arg4) (V m c main_arg5) (V m c main_arg6)
    (V m c main_arg7) (V m c main_arg8) (V m c main_arg9) = _
  rw [src_found m c, dst_found m c, V_main_arg0 m c, V_main_arg4 m c, V_main_arg5 m c, V_main_arg6 m c, V_main_arg7 m c,
    V_main_arg8 m c, V_main_arg9 m c]

end

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both runs end, the kernel's output array at the edge update of its arguments (the blocks, tiled), the reference's
    result at the same function of arguments that agree. -/
theorem algebraic : Cert.algebraic_KernelIdeal_ReferenceIdeal := by
  intro m ρ m' ρ' _ hagree
  refine ⟨fun c => KernelArray.found m c, fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩) (KernelArray.run m ρ)
  · refine (θ_run Cert.ReferenceIdeal.defs _ _).mono (fun r h c => ⟨?_, (h c).2.1.trans (hagree c).2.1, (h c).2.2⟩)
      (Cert.ReferenceIdeal.Value.run (F := Ideal) m' ρ')
    obtain ⟨a0, a1, a2, a3, a4, a5, a6, a7, a8, a9⟩ := hagree c
    show _ = KernelArray.found m c
    rw [(h c).1, Cert.ReferenceIdeal.Read.val_main_v54_eq, RefRow.result_eq, found_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
